-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S1 .f32) (main_arg5 : FVec F S3200000 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S3200000 .f32 := Host.absf main_arg5
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  main_v28

def fn {F : FTy → Type} [FloatOps F] (main_arg0 : FVec F S100000x256 .f32) (main_arg1 : FVec F S256x64 .f32) (main_arg2 : FVec F S64 .f32) (main_arg3 : FVec F S64x1 .f32) (main_arg4 : FVec F S1 .f32) (main_arg5 : FVec F S3200000 .f32) (main_arg6 : IVec S3200000 32) (main_arg7 : IVec S3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_v13 main_v16
-- ==== Kernel.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x1 : Shape := ⟨2, ![1, 1]⟩
abbrev S100000x1 : Shape := ⟨2, ![100000, 1]⟩
abbrev S5000x1 : Shape := ⟨2, ![5000, 1]⟩
abbrev S100000 : Shape := ⟨1, ![100000]⟩

abbrev nBuf : Space → Nat
  | .hbm => 44
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S1x64, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x1, .f32⟩
  | .hbm, ⟨27, _⟩ => ⟨S100000x1, .f32⟩
  | .hbm, ⟨28, _⟩ => ⟨S3200000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x1, .f32⟩
  | .hbm, ⟨38, _⟩ => ⟨S3200000x1, .f32⟩
  | .hbm, ⟨39, _⟩ => ⟨S_, .f32⟩
  | .hbm, ⟨40, _⟩ => ⟨S100000x1, .f32⟩
  | .hbm, ⟨41, _⟩ => ⟨S3200000x1, .i32⟩
  | .hbm, ⟨42, _⟩ => ⟨S100000x1, .f32⟩
  | .hbm, ⟨43, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S100000x1_S100000 : S100000x1.ShapeCasts S100000
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x1_S5000x1_1_0_0_1_n_n_wf : DotDims.WF S5000x64 S64x1 S5000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S100000x64 : Shape := ⟨2, ![100000, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩
abbrev S100000x1 : Shape := ⟨2, ![100000, 1]⟩
abbrev S1x1 : Shape := ⟨2, ![1, 1]⟩
abbrev S100000 : Shape := ⟨1, ![100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x1, .f32⟩
  | .hbm, ⟨32, _⟩ => ⟨S1x1, .f32⟩
  | .hbm, ⟨33, _⟩ => ⟨S100000x1, .f32⟩
  | .hbm, ⟨34, _⟩ => ⟨S100000x1, .f32⟩
  | .hbm, ⟨35, _⟩ => ⟨S3200000x1, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x1, .f32⟩
  | .hbm, ⟨45, _⟩ => ⟨S3200000x1, .f32⟩
  | .hbm, ⟨46, _⟩ => ⟨S_, .f32⟩
  | .hbm, ⟨47, _⟩ => ⟨S100000x1, .f32⟩
  | .hbm, ⟨48, _⟩ => ⟨S3200000x1, .i32⟩
  | .hbm, ⟨49, _⟩ => ⟨S100000x1, .f32⟩
  | .hbm, ⟨50, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x1_S100000x1_1_0_0_1_n_n_wf : DotDims.WF S100000x64 S64x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Spec.lean ====
/-
  The two dense layers of the graph convolution, each as ONE function of whole arrays, index by index, over the
  extended reals. Both programs compute

    Z = A · (relu (A · (X W₁ + b₁)) W₂ + b₂)

  where `A ·` is the edge-weighted gather / scatter-add over the edge list. The kernel computes the two dense maps
  `M ↦ M W + b` in row blocks of 5000 with a matrix unit fed narrowed operands; the reference computes them with one
  whole product each. On the extended reals narrowing is the identity and a product of matrices is the sum of the
  products over the contracted coordinate, so both sides are the functions below, entry by entry.
-/
import Idealize.ShloMosaic.PureOps.Ideal
import Idealize.ShloMosaic.Lib.ValueIdx

noncomputable section

namespace Cert.Gcn

open Idealize.ShloMosaic

/-- Node features, [100000, 256]. -/
abbrev SX : Shape := ⟨2, ![100000, 256]⟩
/-- First weight matrix, [256, 64]. -/
abbrev SW1 : Shape := ⟨2, ![256, 64]⟩
/-- First bias as a row, [1, 64]. -/
abbrev SB1 : Shape := ⟨2, ![1, 64]⟩
/-- Hidden features, [100000, 64]. -/
abbrev SH : Shape := ⟨2, ![100000, 64]⟩
/-- Second weight matrix, [64, 1]. -/
abbrev SW2 : Shape := ⟨2, ![64, 1]⟩
/-- Second bias as a row, [1, 1]. -/
abbrev SB2 : Shape := ⟨2, ![1, 1]⟩
/-- Output column, [100000, 1]. -/
abbrev SZ : Shape := ⟨2, ![100000, 1]⟩

/-- Entry (row of `i`, `k`) of a [100000, K] matrix, for `i` an index of a [100000, C] matrix. -/
abbrev rowAt {K C : Nat} (i : (⟨2, ![100000, C]⟩ : Shape).Idx) (k : Fin K) : (⟨2, ![100000, K]⟩ : Shape).Idx := fun a => match a with
  | ⟨0, _⟩ => ⟨(i 0).val, (i 0).isLt⟩
  | ⟨1, _⟩ => ⟨k.val, k.isLt⟩
/-- Entry (`k`, column of `i`) of a [K, C] matrix. -/
abbrev colAt {K C : Nat} (i : (⟨2, ![100000, C]⟩ : Shape).Idx) (k : Fin K) : (⟨2, ![K, C]⟩ : Shape).Idx := fun a => match a with
  | ⟨0, _⟩ => ⟨k.val, k.isLt⟩
  | ⟨1, _⟩ => ⟨(i 1).val, (i 1).isLt⟩
/-- Entry (0, column of `i`) of a [1, C] row. -/
abbrev biasAt {C : Nat} (i : (⟨2, ![100000, C]⟩ : Shape).Idx) : (⟨2, ![1, C]⟩ : Shape).Idx := fun a => match a with
  | ⟨0, _⟩ => ⟨0, Nat.one_pos⟩
  | ⟨1, _⟩ => ⟨(i 1).val, (i 1).isLt⟩

/-- The first dense layer: `(X W + b) (r, c) = Σₖ X (r, k) · W (k, c) + b (0, c)`. -/
def lin1 (X : FVec Ideal SX .f32) (W : FVec Ideal SW1 .f32) (b : FVec Ideal SB1 .f32) : FVec Ideal SH .f32 :=
  fun i => (∑ k : Fin 256, X (rowAt i k) * W (colAt i k)) + b (biasAt i)

/-- The second dense layer with its rectifier: `(relu S · W + b) (r, c) = Σₖ max (S (r, k)) 0 · W (k, c) + b (0, c)`;
    the zero is the word the programs write for it. -/
def lin2 (S : FVec Ideal SH .f32) (W : FVec Ideal SW2 .f32) (b : FVec Ideal SB2 .f32) : FVec Ideal SZ .f32 :=
  fun i => (∑ k : Fin 64, max (S (rowAt i k)) (Ideal.ofBits .f32 0x00000000#32) * W (colAt i k)) + b (biasAt i)

end Cert.Gcn

end
-- ==== Proof.Layer1.lean ====
/-
  The first pallas region, read as one whole-array function: whatever the buffers hold when the region is entered, its
  output array ends at `lin1` of its three operand arrays.

  The region walks the 100000 rows in 20 blocks of 5000. At block t the body loads rows 5000 t … 5000 t + 4999 of the
  features, the whole weight matrix and the whole bias row, multiplies (narrowing is the identity on the extended reals,
  and the matrix unit's product into a zero accumulator is the sum over the contracted coordinate), adds the bias row to
  every row and stores the 5000 × 64 block; the block is written back to rows 5000 t … of the output. Entry (r, c) of
  block t is therefore `Σₖ X (5000 t + r, k) · W (k, c) + b (0, c)`: the same function of the ARRAY index
  (5000 t + r, c) in every block, and the 20 blocks cover the array.
-/
import proofs.«127589_j84378927497741_1_alg».proof.Proof.Gen.KernelIdeal.Frame
import proofs.«127589_j84378927497741_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's arithmetic at an entry of the block -/

theorem lhs_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
theorem rhs_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
theorem rhs_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (row of `j`, `k`) of the 5000 × 256 feature block. -/
abbrev lrow (j : S5000x64.Idx) (k : Fin 256) : S5000x256.Idx := fun a => match a with
  | ⟨0, _⟩ => ⟨(j 0).val, (j 0).isLt⟩
  | ⟨1, _⟩ => ⟨k.val, k.isLt⟩
/-- Entry (`k`, column of `j`) of the weight matrix. -/
abbrev rcol (j : S5000x64.Idx) (k : Fin 256) : S256x64.Idx := fun a => match a with
  | ⟨0, _⟩ => ⟨k.val, k.isLt⟩
  | ⟨1, _⟩ => ⟨(j 1).val, (j 1).isLt⟩
/-- Entry (0, column of `j`) of the bias row. -/
abbrev brow (j : S5000x64.Idx) : S1x64.Idx := fun a => match a with
  | ⟨0, _⟩ => ⟨0, Nat.one_pos⟩
  | ⟨1, _⟩ => ⟨(j 1).val, (j 1).isLt⟩

/-- The product of the narrowed blocks into the zero accumulator, at an entry: the sum over the 256 contracted
    coordinates of the products of the operands' entries. -/
theorem matmul_entry (x0 : Vec Ideal S5000x256 .f32) (x1 : Vec Ideal S256x64 .f32) (j : S5000x64.Idx) :
    matmul (F := Ideal) dot_S5000x256_S256x64_S5000x64_1_0_0_1_n_n none (truncf .bf16 x0 bitsLt_bf16_f32) (truncf .bf16 x1 bitsLt_bf16_f32)
        (constant S5000x64 .f32 0x00000000#32) j
      = ∑ k : Fin 256, x0 (lrow j k) * x1 (rcol j k) := by
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = lrow j k := funext fun a => Fin.ext (by
    match a with
    | ⟨0, _⟩ => exact lhs_0 _ _
    | ⟨1, _⟩ => exact (lhs_1 _ _).trans hk)
  have er : dot_S5000x256_S256x64_S5000x64_1_0_0_1_n_n.rhsIdx j ((ValueIdx.contrEquiv1 dot_S5000x256_S256x64_S5000x64_1_0_0_1_n_n 256 rfl rfl).symm k) = rcol j k := funext fun a => Fin.ext (by
    match a with
    | ⟨0, _⟩ => exact (rhs_0 _ _).trans hk
    | ⟨1, _⟩ => exact rhs_1 _ _)
  rw [el, er]
  rfl

/-- The bias row stretched over the 5000 rows, at an entry: the row's entry in that column. -/
theorem bias_entry (x2 : Vec Ideal S1x64 .f32) (j : S5000x64.Idx) :
    broadcastTo S5000x64 (shapeCast S1x64 x2 shapeCasts_S1x64_S1x64) broadcasts_S1x64_S5000x64 j = x2 (brow j) := by
  rw [shapeCast_self]
  refine broadcastTo_apply x2 broadcasts_S1x64_S5000x64 j (brow j) fun a => ?_
  match a with
  | ⟨0, _⟩ => show (0 : Nat) = if (1 : Nat) = 1 then 0 else (j 0).val; rw [if_pos rfl]
  | ⟨1, _⟩ => show (j 1).val = if (64 : Nat) = 1 then 0 else (j 1).val; rw [if_neg (by decide)]

/-- What the body stores, at an entry of the block. -/
theorem pay_entry (x0 : Vec Ideal S5000x256 .f32) (x1 : Vec Ideal S256x64 .f32) (x2 : Vec Ideal S1x64 .f32) (j : S5000x64.Idx) :
    k0_pay1 (F := Ideal) x0 x1 x2 j = (∑ k : Fin 256, x0 (lrow j k) * x1 (rcol j k)) + x2 (brow j) := by
  unfold k0_pay1
  show matmul (F := Ideal) dot_S5000x256_S256x64_S5000x64_1_0_0_1_n_n none (truncf .bf16 x0 bitsLt_bf16_f32) (truncf .bf16 x1 bitsLt_bf16_f32)
        (constant S5000x64 .f32 0x00000000#32) j
      + broadcastTo S5000x64 (shapeCast S1x64 x2 shapeCasts_S1x64_S1x64) broadcasts_S1x64_S5000x64 j = _
  rw [matmul_entry, bias_entry]

/-! ## From the blocks to the array -/

section
variable (V : (c : Dev nD) → (b : Ref sig .tc) → Buf (Elt Ideal) ((c : Thread nD τ).loc b))

/-- The printed index maps over the 20 points: the feature window and the output window sit at row block t, column
    block 0; the weight and bias windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region's output array as one function of its operand arrays as the region finds them. -/
abbrev G (c : Dev nD) : FVec Ideal S100000x64 .f32 :=
  Cert.Gcn.lin1 (V c main_arg0) (V c main_arg1) (V c main_v0)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S1x64) hz]
  obtain ⟨e00, e01, e10, e11, e20, e21, e30, e31⟩ := idx_facts t
  funext j
  show k0_pay1 (F := Ideal) (iblk0 V c 0 t) (iblk0 V c 1 t) (iblk0 V c 2 t) j = G V c (((cfg0.win 3).blk t).view.emb j)
  refine (pay_entry (iblk0 V c 0 t) (iblk0 V c 1 t) (iblk0 V c 2 t) j).trans ?_
  have hj0 : (j 0).val < 5000 := (j 0).isLt
  have hj1 : (j 1).val < 64 := (j 1).isLt
  refine congrArg₂ (· + ·) (Finset.sum_congr rfl fun k _ => congrArg₂ (· * ·) ?_ ?_) ?_
  · show V c main_arg0 (((cfg0.win 0).blk t).view.emb (lrow j k)) = V c main_arg0 (Cert.Gcn.rowAt (((cfg0.win 3).blk t).view.emb j) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show V c main_arg1 (((cfg0.win 1).blk t).view.emb (rcol j k)) = V c main_arg1 (Cert.Gcn.colAt (((cfg0.win 3).blk t).view.emb j) k)
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_3.index t (1 : Fin 2) * 64 + 1 * (j 1).val; omega
  · show V c main_v0 (((cfg0.win 2).blk t).view.emb (brow j)) = V c main_v0 (Cert.Gcn.biasAt (((cfg0.win 3).blk t).view.emb j))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Row r of the output lies in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the region: `lin1` of the operand arrays as the region finds them. -/
theorem final (c : Dev nD) : (dat0 V c).arrAt 3 cfg0.N = G V c :=
  (dat0 V c).arrAt_eq_of_cover 3 (G V c) (fun t _ => flushed_eq V c t) cover

end

end Cert.KernelIdeal.Layer1

end
-- ==== Proof.Layer2.lean ====
/-
  The second pallas region, read as one whole-array function: whatever the buffers hold when the region is entered, its
  output column ends at `lin2` of its three operand arrays.

  The region walks the 100000 rows in 20 blocks of 5000. At block t the body loads rows 5000 t … 5000 t + 4999 of the
  aggregated hidden features, takes the maximum with zero entry by entry, multiplies by the whole 64 × 1 weight column
  (narrowing is the identity on the extended reals; the matrix unit's product into a zero accumulator is the sum over
  the contracted coordinate), adds the one bias entry to every row and stores the 5000 × 1 block, which is written back
  to rows 5000 t … of the output. Entry (r, 0) of block t is `Σₖ max (S (5000 t + r, k)) 0 · W (k, 0) + b (0, 0)`: one
  function of the ARRAY index in every block, and the 20 blocks cover the array.
-/
import proofs.«127589_j84378927497741_1_alg».proof.Proof.Gen.KernelIdeal.Frame
import proofs.«127589_j84378927497741_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's arithmetic at an entry of the block -/

theorem lhs_0 (j : S5000x1.Idx) (q : dot_S5000x64_S64x1_S5000x1_1_0_0_1_n_n.contr.Idx) :
    (dot_S5000x64_S64x1_S5000x1_1_0_0_1_n_n.lhsIdx j q 0).val = (j 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_1 (j : S5000x1.Idx) (q : dot_S5000x64_S64x1_S5000x1_1_0_0_1_n_n.contr.Idx) :
    (dot_S5000x64_S64x1_S5000x1_1_0_0_1_n_n.lhsIdx j q 1).val = (q ⟨0, by decide⟩).val :=
  dot_S5000x64_S64x1_S5000x1_1_0_0_1_n_n.lhsIdx_val_of_single rfl j q
theorem rhs_0 (j : S5000x1.Idx) (q : dot_S5000x64_S64x1_S5000x1_1_0_0_1_n_n.contr.Idx) :
    (dot_S5000x64_S64x1_S5000x1_1_0_0_1_n_n.rhsIdx j q 0).val = (q ⟨0, by decide⟩).val :=
  dot_S5000x64_S64x1_S5000x1_1_0_0_1_n_n.rhsIdx_val_of_single rfl j q
theorem rhs_1 (j : S5000x1.Idx) (q : dot_S5000x64_S64x1_S5000x1_1_0_0_1_n_n.contr.Idx) :
    (dot_S5000x64_S64x1_S5000x1_1_0_0_1_n_n.rhsIdx j q 1).val = (j 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Entry (row of `j`, `k`) of the 5000 × 64 hidden block. -/
abbrev lrow (j : S5000x1.Idx) (k : Fin 64) : S5000x64.Idx := fun a => match a with
  | ⟨0, _⟩ => ⟨(j 0).val, (j 0).isLt⟩
  | ⟨1, _⟩ => ⟨k.val, k.isLt⟩
/-- Entry (`k`, column of `j`) of the weight column. -/
abbrev rcol (j : S5000x1.Idx) (k : Fin 64) : S64x1.Idx := fun a => match a with
  | ⟨0, _⟩ => ⟨k.val, k.isLt⟩
  | ⟨1, _⟩ => ⟨(j 1).val, (j 1).isLt⟩
/-- The one entry of the bias. -/
abbrev bent : S1x1.Idx := fun a => match a with
  | ⟨0, _⟩ => ⟨0, Nat.one_pos⟩
  | ⟨1, _⟩ => ⟨0, Nat.one_pos⟩

/-- The product of the narrowed blocks into the zero accumulator, at an entry: the sum over the 64 contracted
    coordinates of the products of the operands' entries. -/
theorem matmul_entry (y : FVec Ideal S5000x64 .f32) (x1 : Vec Ideal S64x1 .f32) (j : S5000x1.Idx) :
    matmul (F := Ideal) dot_S5000x64_S64x1_S5000x1_1_0_0_1_n_n none (truncf .bf16 y bitsLt_bf16_f32) (truncf .bf16 x1 bitsLt_bf16_f32)
        (constant S5000x1 .f32 0x00000000#32) j
      = ∑ k : Fin 64, y (lrow j k) * x1 (rcol j k) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx j ((ValueIdx.contrEquiv1 dot_S5000x64_S64x1_S5000x1_1_0_0_1_n_n 64 rfl rfl).symm k) = lrow j k := funext fun a => Fin.ext (by
    match a with
    | ⟨0, _⟩ => exact lhs_0 _ _
    | ⟨1, _⟩ => exact (lhs_1 _ _).trans hk)
  have er : dot_S5000x64_S64x1_S5000x1_1_0_0_1_n_n.rhsIdx j ((ValueIdx.contrEquiv1 dot_S5000x64_S64x1_S5000x1_1_0_0_1_n_n 64 rfl rfl).symm k) = rcol j k := funext fun a => Fin.ext (by
    match a with
    | ⟨0, _⟩ => exact (rhs_0 _ _).trans hk
    | ⟨1, _⟩ => exact rhs_1 _ _)
  rw [el, er]
  rfl

/-- The bias entry stretched over the 5000 rows, at an entry: that one entry. -/
theorem bias_entry (x2 : Vec Ideal S1x1 .f32) (j : S5000x1.Idx) :
    broadcastTo S5000x1 (shapeCast S1x1 x2 shapeCasts_S1x1_S1x1) broadcasts_S1x1_S5000x1 j = x2 bent := by
  rw [shapeCast_self]
  refine broadcastTo_apply x2 broadcasts_S1x1_S5000x1 j bent fun a => ?_
  match a with
  | ⟨0, _⟩ => show (0 : Nat) = if (1 : Nat) = 1 then 0 else (j 0).val; rw [if_pos rfl]
  | ⟨1, _⟩ => show (0 : Nat) = if (1 : Nat) = 1 then 0 else (j 1).val; rw [if_pos rfl]

/-- What the body stores, at an entry of the block. -/
theorem pay_entry (x0 : Vec Ideal S5000x64 .f32) (x1 : Vec Ideal S64x1 .f32) (x2 : Vec Ideal S1x1 .f32) (j : S5000x1.Idx) :
    k1_pay1 (F := Ideal) x0 x1 x2 j
      = (∑ k : Fin 64, max (x0 (lrow j k)) (Ideal.ofBits .f32 0x00000000#32) * x1 (rcol j k)) + x2 bent := by
  unfold k1_pay1
  show matmul (F := Ideal) dot_S5000x64_S64x1_S5000x1_1_0_0_1_n_n none
          (truncf .bf16 (maximumf (shapeCast S5000x64 x0 shapeCasts_S5000x64_S5000x64) (broadcast S5000x64 (Scalar.ofBits .f32 0x00000000#32))) bitsLt_bf16_f32)
          (truncf .bf16 x1 bitsLt_bf16_f32) (constant S5000x1 .f32 0x00000000#32) j
      + broadcastTo S5000x1 (shapeCast S1x1 x2 shapeCasts_S1x1_S1x1) broadcasts_S1x1_S5000x1 j = _
  rw [matmul_entry, bias_entry, shapeCast_self]
  rfl

/-! ## From the blocks to the array -/

section
variable (V : (c : Dev nD) → (b : Ref sig .tc) → Buf (Elt Ideal) ((c : Thread nD τ).loc b))

/-- The printed index maps over the 20 points: the hidden window and the output window sit at row block t, column
    block 0; the weight and bias windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The region's output array as one function of its operand arrays as the region finds them. -/
abbrev G (c : Dev nD) : FVec Ideal S100000x1 .f32 :=
  Cert.Gcn.lin2 (V c main_v14) (V c main_arg3) (V c main_v15)

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x1) hz, View.ld_unit_zero (S := S1x1) hz]
  obtain ⟨e00, e01, e10, e11, e20, e21, e30, e31⟩ := idx_facts t
  funext j
  show k1_pay1 (F := Ideal) (iblk1 V c 0 t) (iblk1 V c 1 t) (iblk1 V c 2 t) j = G V c (((cfg1.win 3).blk t).view.emb j)
  refine (pay_entry (iblk1 V c 0 t) (iblk1 V c 1 t) (iblk1 V c 2 t) j).trans ?_
  have hj0 : (j 0).val < 5000 := (j 0).isLt
  have hj1 : (j 1).val < 1 := (j 1).isLt
  refine congrArg₂ (· + ·) (Finset.sum_congr rfl fun k _ => congrArg₂ (· * ·) (congrArg (max · _) ?_) ?_) ?_
  · show V c main_v14 (((cfg1.win 0).blk t).view.emb (lrow j k)) = V c main_v14 (Cert.Gcn.rowAt (((cfg1.win 3).blk t).view.emb j) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_arg3 (((cfg1.win 1).blk t).view.emb (rcol j k)) = V c main_arg3 (Cert.Gcn.colAt (((cfg1.win 3).blk t).view.emb j) k)
    refine congrArg _ (funext fun a => Fin.ext ?_)
    match a with
    | ⟨0, _⟩ => show win1_1.index t (0 : Fin 2) * 64 + 1 * k.val = k.val; omega
    | ⟨1, _⟩ => show win1_1.index t (1 : Fin 2) * 1 + 1 * (j 1).val = win1_3.index t (1 : Fin 2) * 1 + 1 * (j 1).val; omega
  · show V c main_v15 (((cfg1.win 2).blk t).view.emb bent) = V c main_v15 (Cert.Gcn.biasAt (((cfg1.win 3).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 1 + 1 * 0 = win1_3.index t (1 : Fin 2) * 1 + 1 * (j 1).val; omega

/-- An index of the output array is in point `t`'s block iff each coordinate is in the block's range on its axis. -/
theorem mem_blk (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v16).slice (win1_3.rect t)).set ↔ _
  rw [View.set_slice_whole, Rect.mem_set_unit]
  exact Iff.rfl

/-- Row r of the output lies in the block of point r / 5000. -/
theorem cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨-, -, -, -, -, -, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 1 ≤ (i 1).val ∧ (i 1).val < win1_3.index t (1 : Fin 2) * 1 + 1; omega

/-- THE OUTPUT ARRAY after the region: `lin2` of the operand arrays as the region finds them. -/
theorem final (c : Dev nD) : (dat1 V c).arrAt 3 cfg1.N = G V c :=
  (dat1 V c).arrAt_eq_of_cover 3 (G V c) (fun t _ => flushed_eq V c t) cover

end

end Cert.KernelIdeal.Layer2

end
-- ==== Proof.KernelValue.lean ====
/-
  The program's result buffer, read back through the whole run as ONE term of the launch contents.

  The program is five stretches: a reshape of the first bias; the first dense region; the edge aggregation of its output
  (seventeen host operations: normalise the source indices, gather the source rows, scale by the edge weights,
  scatter-add into the destination rows) and a reshape of the second bias; the second dense region; the edge
  aggregation of its output and a reshape to a vector. Each host stretch's result is the stretch's operations applied to
  what the stretch found; each region's output array is the whole-array function of what the region found
  (`Layer1.final`, `Layer2.final`); no stretch and no region writes an argument. Folding these from the launch memory:

    result = reshape (agg₁ (lin2 (agg₆₄ (lin1 X W₁ (reshape b₁))) W₂ (reshape b₂)))

  with `agg₆₄`, `agg₁` the two edge aggregations (over 64 columns and over one) of the edge weights and indices.
-/
import proofs.«127589_j84378927497741_1_alg».proof.Proof.Gen.KernelIdeal.Frame
import proofs.«127589_j84378927497741_1_alg».proof.Proof.Layer1
import proofs.«127589_j84378927497741_1_alg».proof.Proof.Layer2
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-! ## The edge aggregation, as the host operations write it -/

/-- The source indices, negative ones wrapped by the node count, as a column. -/
abbrev srcCol (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- `A · M` for a 64-column `M`: gather the source rows, scale each by its edge weight, scatter-add into the
    destination rows of a zero array. -/
abbrev agg64 (M : FVec Ideal S100000x64 .f32) (ew : FVec Ideal S3200000 .f32) (src dst : IVec S3200000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf (broadcastInDim S3200000x64 ![0, 1] bcast_S3200000x1_S3200000x64_0_1 (broadcastInDim S3200000x1 ![0] bcast_S3200000_S3200000x1_0 ew))
      (Host.gather gather_S100000x64_S3200000x1_S3200000x64_1_0_n_n_0_1_164 M (srcCol src)))

/-- `A · M` for a one-column `M`. -/
abbrev agg1 (M : FVec Ideal S100000x1 .f32) (ew : FVec Ideal S3200000 .f32) (src dst : IVec S3200000 32) : FVec Ideal S100000x1 .f32 :=
  Host.scatterAdd scatter_S100000x1_S3200000x1_S3200000x1_1_0_0_1
    (broadcastInDim S100000x1 ![] bcast_S_S100000x1 (constant (F := Ideal) S_ .f32 0x00000000#32))
    (broadcastInDim S3200000x1 ![0] bcast_S3200000_S3200000x1_0 dst)
    (mulf (broadcastInDim S3200000x1 ![0] bcast_S3200000_S3200000x1_0 ew)
      (Host.gather gather_S100000x1_S3200000x1_S3200000x1_1_0_n_n_0_1_11 M (srcCol src)))

variable (m : (ℓ : Loc nD τ sig) → Buf (Elt Ideal) ℓ) (ρ : Dev nD → PrngReg)

/-! ## Entering the first region: the arguments as launched, the first bias as a row -/

theorem W1_arg0 (c : Dev nD) : W1 m ρ c (Proc.devRef .tc main_arg0) = m ((c.tc : Thread nD τ).loc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg1 (c : Dev nD) : W1 m ρ c (Proc.devRef .tc main_arg1) = m ((c.tc : Thread nD τ).loc main_arg1) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_v0 (c : Dev nD) : W1 m ρ c (Proc.devRef .tc main_v0) = shapeCast S1x64 (m ((c.tc : Thread nD τ).loc main_arg2)) shapeCasts_S64_S1x64 := by
  show StableHlo.after hostOps0 (W0 m ρ c) (Proc.devRef .tc main_v0) = _
  dsimp only [hostOps0]
  after_results
  rfl

/-! ## Leaving the first region: its output at `lin1`, the other arguments as launched -/

theorem W2_v1 (c : Dev nD) : W2 m ρ c (Proc.devRef .tc main_v1)
    = Cert.Gcn.lin1 (m ((c.tc : Thread nD τ).loc main_arg0)) (m ((c.tc : Thread nD τ).loc main_arg1)) (shapeCast S1x64 (m ((c.tc : Thread nD τ).loc main_arg2)) shapeCasts_S64_S1x64) := by
  refine (W2_arr m ρ c 3).trans ((Layer1.final (V1 m ρ) c).trans ?_)
  show Cert.Gcn.lin1 (W1 m ρ c (Proc.devRef .tc main_arg0)) (W1 m ρ c (Proc.devRef .tc main_arg1)) (W1 m ρ c (Proc.devRef .tc main_v0)) = _
  rw [W1_arg0, W1_arg1, W1_v0]
theorem W2_arg3 (c : Dev nD) : W2 m ρ c (Proc.devRef .tc main_arg3) = m ((c.tc : Thread nD τ).loc main_arg3) :=
  (W2_of_ne m ρ c main_arg3 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg4 (c : Dev nD) : W2 m ρ c (Proc.devRef .tc main_arg4) = m ((c.tc : Thread nD τ).loc main_arg4) :=
  (W2_of_ne m ρ c main_arg4 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg5 (c : Dev nD) : W2 m ρ c (Proc.devRef .tc main_arg5) = m ((c.tc : Thread nD τ).loc main_arg5) :=
  (W2_of_ne m ρ c main_arg5 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg6 (c : Dev nD) : W2 m ρ c (Proc.devRef .tc main_arg6) = m ((c.tc : Thread nD τ).loc main_arg6) :=
  (W2_of_ne m ρ c main_arg6 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg7 (c : Dev nD) : W2 m ρ c (Proc.devRef .tc main_arg7) = m ((c.tc : Thread nD τ).loc main_arg7) :=
  (W2_of_ne m ρ c main_arg7 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Entering the second region: the aggregated hidden features, the second bias as a row -/

theorem W3_v14 (c : Dev nD) : W3 m ρ c (Proc.devRef .tc main_v14)
    = agg64 (Cert.Gcn.lin1 (m ((c.tc : Thread nD τ).loc main_arg0)) (m ((c.tc : Thread nD τ).loc main_arg1)) (shapeCast S1x64 (m ((c.tc : Thread nD τ).loc main_arg2)) shapeCasts_S64_S1x64))
        (m ((c.tc : Thread nD τ).loc main_arg5)) (m ((c.tc : Thread nD τ).loc main_arg6)) (m ((c.tc : Thread nD τ).loc main_arg7)) := by
  show StableHlo.after hostOps1 (W2 m ρ c) (Proc.devRef .tc main_v14) = _
  dsimp only [hostOps1]
  after_results
  rw [W2_v1, W2_arg5, W2_arg6, W2_arg7]
theorem W3_v15 (c : Dev nD) : W3 m ρ c (Proc.devRef .tc main_v15) = shapeCast S1x1 (m ((c.tc : Thread nD τ).loc main_arg4)) shapeCasts_S1_S1x1 := by
  show StableHlo.after hostOps1 (W2 m ρ c) (Proc.devRef .tc main_v15) = _
  dsimp only [hostOps1]
  after_results
  rw [W2_arg4]
  rfl
theorem W3_arg3 (c : Dev nD) : W3 m ρ c (Proc.devRef .tc main_arg3) = m ((c.tc : Thread nD τ).loc main_arg3) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)
theorem W3_arg5 (c : Dev nD) : W3 m ρ c (Proc.devRef .tc main_arg5) = m ((c.tc : Thread nD τ).loc main_arg5) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)
theorem W3_arg6 (c : Dev nD) : W3 m ρ c (Proc.devRef .tc main_arg6) = m ((c.tc : Thread nD τ).loc main_arg6) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)
theorem W3_arg7 (c : Dev nD) : W3 m ρ c (Proc.devRef .tc main_arg7) = m ((c.tc : Thread nD τ).loc main_arg7) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

/-! ## Leaving the second region: its output at `lin2`, the edge list as launched -/

theorem W4_v16 (c : Dev nD) : W4 m ρ c (Proc.devRef .tc main_v16)
    = Cert.Gcn.lin2 (agg64 (Cert.Gcn.lin1 (m ((c.tc : Thread nD τ).loc main_arg0)) (m ((c.tc : Thread nD τ).loc main_arg1)) (shapeCast S1x64 (m ((c.tc : Thread nD τ).loc main_arg2)) shapeCasts_S64_S1x64))
          (m ((c.tc : Thread nD τ).loc main_arg5)) (m ((c.tc : Thread nD τ).loc main_arg6)) (m ((c.tc : Thread nD τ).loc main_arg7)))
        (m ((c.tc : Thread nD τ).loc main_arg3)) (shapeCast S1x1 (m ((c.tc : Thread nD τ).loc main_arg4)) shapeCasts_S1_S1x1) := by
  refine (W4_arr m ρ c 3).trans ((Layer2.final (V3 m ρ) c).trans ?_)
  show Cert.Gcn.lin2 (W3 m ρ c (Proc.devRef .tc main_v14)) (W3 m ρ c (Proc.devRef .tc main_arg3)) (W3 m ρ c (Proc.devRef .tc main_v15)) = _
  rw [W3_v14, W3_arg3, W3_v15]
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)

/-! ## The result -/

/-- The program's result as one term of the launch contents. -/
abbrev result (c : Dev nD) : FVec Ideal S100000 .f32 :=
  shapeCast S100000
    (agg1 (Cert.Gcn.lin2 (agg64 (Cert.Gcn.lin1 (m ((c.tc : Thread nD τ).loc main_arg0)) (m ((c.tc : Thread nD τ).loc main_arg1)) (shapeCast S1x64 (m ((c.tc : Thread nD τ).loc main_arg2)) shapeCasts_S64_S1x64))
              (m ((c.tc : Thread nD τ).loc main_arg5)) (m ((c.tc : Thread nD τ).loc main_arg6)) (m ((c.tc : Thread nD τ).loc main_arg7)))
            (m ((c.tc : Thread nD τ).loc main_arg3)) (shapeCast S1x1 (m ((c.tc : Thread nD τ).loc main_arg4)) shapeCasts_S1_S1x1))
      (m ((c.tc : Thread nD τ).loc main_arg5)) (m ((c.tc : Thread nD τ).loc main_arg6)) (m ((c.tc : Thread nD τ).loc main_arg7)))
    shapeCasts_S100000x1_S100000

set_option maxHeartbeats 2000000 in
/-- What the last stretch leaves in the result buffer is `result`. -/
theorem W5_v29 (c : Dev nD) : W5 m ρ c (Proc.devRef .tc main_v29) = result m c := by
  show StableHlo.after hostOps2 (W4 m ρ c) (Proc.devRef .tc main_v29) = _
  dsimp only [hostOps2]
  after_results_simp
  rw [W4_v16, W4_arg5, W4_arg6, W4_arg7]
  rfl

end Cert.KernelIdeal.Fold

end
-- ==== Proof.RefValue.lean ====
/-
  The reference's two dense layers, read entry by entry.

  The reference computes `X W₁ + b₁` and `relu S · W₂ + b₂` each as one whole matrix product plus a bias row stretched
  over the rows. On the extended reals a matrix product at entry (r, c) is the sum over the contracted coordinate k of
  the products of the operands' entries (r, k) and (k, c); the stretched bias at (r, c) is the row's entry (0, c); the
  rectifier at an entry is the maximum of that entry and zero. So each layer is the whole-array function of
  `Cert.Gcn`: `lin1`, `lin2`.
-/
import proofs.«127589_j84378927497741_1_alg».proof.Proof.Gen.ReferenceIdeal.Read
import proofs.«127589_j84378927497741_1_alg».proof.Proof.Spec

noncomputable section

namespace Cert.ReferenceIdeal.Dense

open Cert.ReferenceIdeal Cert.ReferenceIdeal.Gen Cert.ReferenceIdeal.Read Idealize.ShloMosaic Idealize.ShloMosaic.TcCoe

/-! The index maps the products and the stretched rows read through are the row / column / bias-row maps of the
    specification, coordinate by coordinate. -/
theorem lidx0_eq (i : S100000x64.Idx) (k : Fin 256) : lidx_main_v0 i k = Cert.Gcn.rowAt i k :=
  funext fun a => Fin.ext (by match a with | ⟨0, _⟩ => rfl | ⟨1, _⟩ => rfl)
theorem ridx0_eq (i : S100000x64.Idx) (k : Fin 256) : ridx_main_v0 i k = Cert.Gcn.colAt i k :=
  funext fun a => Fin.ext (by match a with | ⟨0, _⟩ => rfl | ⟨1, _⟩ => rfl)
theorem bidx0_eq (i : S100000x64.Idx) : idx_main_v2 i = Cert.Gcn.biasAt i :=
  funext fun a => Fin.ext (by match a with | ⟨0, _⟩ => rfl | ⟨1, _⟩ => rfl)
theorem lidx18_eq (i : S100000x1.Idx) (k : Fin 64) : lidx_main_v18 i k = Cert.Gcn.rowAt i k :=
  funext fun a => Fin.ext (by match a with | ⟨0, _⟩ => rfl | ⟨1, _⟩ => rfl)
theorem ridx18_eq (i : S100000x1.Idx) (k : Fin 64) : ridx_main_v18 i k = Cert.Gcn.colAt i k :=
  funext fun a => Fin.ext (by match a with | ⟨0, _⟩ => rfl | ⟨1, _⟩ => rfl)

/-- `X W₁ + b₁` as the reference writes it is `lin1` of the operands and the bias row: the product at (r, c) is
    `Σₖ X (r, k) · W₁ (k, c)`, the stretched row at (r, c) is its entry (0, c). -/
theorem dense1_eq (x0 : FVec Ideal S100000x256 .f32) (x1 : FVec Ideal S256x64 .f32) (x2 : FVec Ideal S64 .f32) :
    addf (Host.dotGeneral dot_S100000x256_S256x64_S100000x64_1_0_0_1_n_n none x0 x1)
        (broadcastInDim S100000x64 ![0, 1] bcast_S1x64_S100000x64_0_1 (broadcastInDim S1x64 ![1] bcast_S64_S1x64_1 x2))
      = Cert.Gcn.lin1 x0 x1 (broadcastInDim S1x64 ![1] bcast_S64_S1x64_1 x2) := by
  funext i
  show FloatOps.addf (F := Ideal) (φ := .f32) (val_main_v0 (F := Ideal) x0 x1 i) (val_main_v2 (F := Ideal) x2 i) = _
  rw [val_main_v0_apply, val_main_v2_apply]
  simp only [lidx0_eq, ridx0_eq, bidx0_eq]
  rfl

/-- A whole product `S' · W₂` of ANY [100000, 64] left operand, at an entry: the sum over the 64 contracted
    coordinates. -/
theorem dot2_apply (y : FVec Ideal S100000x64 .f32) (x3 : FVec Ideal S64x1 .f32) (i : S100000x1.Idx) :
    Host.dotGeneral dot_S100000x64_S64x1_S100000x1_1_0_0_1_n_n none y x3 i = ∑ k : Fin 64, y (lidx_main_v18 i k) * x3 (ridx_main_v18 i k) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v18 i k := funext fun a => Fin.ext (by
    match a with
    | ⟨0, _⟩ => exact lhs_main_v18_0 _ _
    | ⟨1, _⟩ => exact (lhs_main_v18_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- `relu S · W₂ + b₂` as the reference writes it is `lin2` of the operands and the bias row, for ANY `S`: the
    rectifier at an entry is the maximum with the zero word, the product the sum over the contracted coordinate, the
    stretched row its entry (0, c). -/
theorem dense2_eq (s : FVec Ideal S100000x64 .f32) (x3 : FVec Ideal S64x1 .f32) (x4 : FVec Ideal S1 .f32) :
    addf (Host.dotGeneral dot_S100000x64_S64x1_S100000x1_1_0_0_1_n_n none
          (maximumf s (broadcastInDim S100000x64 ![] bcast_S_S100000x64 (constant S_ .f32 0x00000000#32))) x3)
        (broadcastInDim S100000x1 ![0, 1] bcast_S1x1_S100000x1_0_1 (broadcastInDim S1x1 ![1] bcast_S1_S1x1_1 x4))
      = Cert.Gcn.lin2 s x3 (broadcastInDim S1x1 ![1] bcast_S1_S1x1_1 x4) := by
  funext i
  show FloatOps.addf (F := Ideal) (φ := .f32) (Host.dotGeneral dot_S100000x64_S64x1_S100000x1_1_0_0_1_n_n none _ x3 i) (val_main_v20 (F := Ideal) x4 i) = _
  rw [dot2_apply, val_main_v20_apply]
  refine congrArg₂ (· + ·) (Finset.sum_congr rfl fun k _ => ?_) ?_
  · rw [lidx18_eq, ridx18_eq]
    refine congrArg₂ (· * ·) ?_ rfl
    show max (s (Cert.Gcn.rowAt i k)) (val_main_call0_v0 (F := Ideal) (Cert.Gcn.rowAt i k)) = _
    rw [val_main_call0_v0_apply]
    rfl
  · show val_main_v19 (F := Ideal) x4 (idx_main_v20 i) = val_main_v19 (F := Ideal) x4 (Cert.Gcn.biasAt i)
    refine congrArg _ (funext fun a => Fin.ext ?_)
    match a with
    | ⟨0, _⟩ => rfl
    | ⟨1, _⟩ =>
      have h1 : (i 1).val < 1 := (i 1).isLt
      show (0 : Nat) = (i 1).val
      omega

end Cert.ReferenceIdeal.Dense

end
-- ==== Proof.Rows.lean ====
/-
  A vector of n entries made into a 1 × n row two ways — by a reshape, and by a broadcast along a new leading axis of
  extent one — is the same row: entry (0, c) is entry c of the vector either way.
-/
import Idealize.ShloMosaic.Lib.Pipeline.Value

namespace Cert.Gcn

open Idealize.ShloMosaic

theorem row_eq {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin (⟨2, ![1, n]⟩ : Shape).rank)) :
    shapeCast ⟨2, ![1, n]⟩ b h = broadcastInDim ⟨2, ![1, n]⟩ ![1] h' b := by
  funext j
  rw [shapeCast_addUnit_apply ![n] b h j]
  symm
  refine broadcastInDim_apply _ h' b j (fun a => j a.succ) fun a => ?_
  match a with
  | ⟨0, _⟩ =>
    have hlt : (j 1).val < n := (j 1).isLt
    show (j 1).val = if n = 1 then 0 else (j 1).val
    by_cases hn : n = 1
    · rw [if_pos hn]; omega
    · rw [if_neg hn]

end Cert.Gcn
-- ==== Proof.lean ====
/-
  A two-layer graph convolution: `Z = A · (relu (A · (X W₁ + b₁)) W₂ + b₂)`, where `A ·` gathers source rows along the
  edge list, scales each by its edge weight and scatter-adds into the destination rows.

  The kernel computes the two dense maps in pallas regions (row blocks of 5000, narrowed operands into the matrix unit,
  bias added in the body, the rectifier fused into the second) and the two aggregations by the same host operations as
  the reference; the reference computes the dense maps by whole matrix products. Over the extended reals narrowing is
  the identity and both products are the sum over the contracted coordinate, so each dense map is one function of whole
  arrays on both sides (`Cert.Gcn.lin1`, `lin2`); the aggregations are the same operations applied to equal operands.
  No law of arithmetic beyond that is used, so the precondition is never opened.

  * the kernel's result as one term of its arguments: `Fold.W5_v29` over the run with the result buffer named;
  * the reference's dense layers as the same functions: `Dense.dense1_eq`, `Dense.dense2_eq`;
  * the bias rows (a reshape on one side, a broadcast along a new axis on the other): `Cert.Gcn.row_eq`.
-/
import proofs.«127589_j84378927497741_1_alg».proof.Defs
import proofs.«127589_j84378927497741_1_alg».proof.Proof.Gen.Kernel
import proofs.«127589_j84378927497741_1_alg».proof.Proof.Gen.Kernel.Frame
import proofs.«127589_j84378927497741_1_alg».proof.Proof.Gen.KernelIdeal
import proofs.«127589_j84378927497741_1_alg».proof.Proof.Gen.KernelIdeal.Frame
import proofs.«127589_j84378927497741_1_alg».proof.Proof.Gen.ReferenceIdeal
import proofs.«127589_j84378927497741_1_alg».proof.Proof.Gen.Pre_finite_inputs
import proofs.«127589_j84378927497741_1_alg».proof.Proof.Gen.ReferenceIdeal.Run
import proofs.«127589_j84378927497741_1_alg».proof.Proof.Gen.ReferenceIdeal.Read
import proofs.«127589_j84378927497741_1_alg».proof.Proof.KernelRun
import proofs.«127589_j84378927497741_1_alg».proof.Proof.KernelValue
import proofs.«127589_j84378927497741_1_alg».proof.Proof.RefValue
import proofs.«127589_j84378927497741_1_alg».proof.Proof.Rows

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no region: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at `reshape (agg₁ (lin2 (agg₆₄ (lin1 X W₁ b₁ʳ)) W₂ b₂ʳ))` of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Fold.result m c, ?_, ?_⟩
  · exact (θ_run Cert.KernelIdeal.defs _ _).mono
      (fun _ h c => ⟨(h c).1.trans (Cert.KernelIdeal.Fold.W5_v29 m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7, Cert.ReferenceIdeal.Dense.dense1_eq, Cert.ReferenceIdeal.Dense.dense2_eq]
    beta_reduce
    unfold Cert.KernelIdeal.Fold.result Cert.KernelIdeal.Fold.agg1 Cert.KernelIdeal.Fold.agg64
    rw [Cert.Gcn.row_eq _ Cert.KernelIdeal.Facts₀.shapeCasts_S64_S1x64 Cert.ReferenceIdeal.Facts₀.bcast_S64_S1x64_1,
      Cert.Gcn.row_eq _ Cert.KernelIdeal.Facts₀.shapeCasts_S1_S1x1 Cert.ReferenceIdeal.Facts₀.bcast_S1_S1x1_1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
